-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S50257x1024 : Shape := ⟨2, ![50257, 1024]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : IVec S4x4096 32) (main_arg1 : FVec F S50257x1024 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_c_0 : IVec S_ 32 := constantI S_ 32 0#32
  let main_v4 : IVec S4x4096 32 := broadcastInDim S4x4096 ![] bcast_S_S4x4096 main_c_0
  let main_v5 : IVec S4x4096 1 := cmpi .sge main_arg0 main_v4
  let main_c_1 : IVec S_ 32 := constantI S_ 32 50257#32
  let main_v6 : IVec S4x4096 32 := broadcastInDim S4x4096 ![] bcast_S_S4x4096 main_c_1
  let main_v7 : IVec S4x4096 1 := cmpi .slt main_arg0 main_v6
  let main_v8 : IVec S4x4096 1 := andi main_v5 main_v7
  let main_c_2 : IVec S_ 1 := constantI S_ 1 1#1
  let main_v9 : IVec S_ 1 := (fun x v => Host.reduce IntOp.andi x v reducesTo_S4x4096_S_d0_1 h_S_) main_v8 main_c_2
  let main_v10 : IVec S_ 1 := andi main_v3 main_v9
  main_v10
-- ==== Kernel.lean ====
abbrev S4x4096 : Shape := ⟨2, ![4, 4096]⟩
abbrev S50257x1024 : Shape := ⟨2, ![50257, 1024]⟩
abbrev S16384 : Shape := ⟨1, ![16384]⟩
abbrev S50257x1x1024 : Shape := ⟨3, ![50257, 1, 1024]⟩
abbrev S16384x1x1024 : Shape := ⟨3, ![16384, 1, 1024]⟩
abbrev S1x1x1024 : Shape := ⟨3, ![1, 1, 1024]⟩
abbrev S1 : Shape := ⟨1, ![1]⟩
abbrev S16384x1024 : Shape := ⟨2, ![16384, 1024]⟩
abbrev S4x4096x1024 : Shape := ⟨3, ![4, 4096, 1024]⟩

abbrev nBuf : Space → Nat
  | .hbm => 6
  | .vmem => 4
  | .smem => 1
  | _ => 0

abbrev bufTy : (tb : Table) → Fin (tcTables nBuf tb) → BufTy
  | .hbm, ⟨0, _⟩ => ⟨S4x4096, .i32⟩
  | .hbm, ⟨1, _⟩ => ⟨S50257x1024, .f32⟩
  | .hbm, ⟨2, _⟩ => ⟨S50257x1x1024, .f32⟩
  | .hbm, ⟨3, _⟩ => ⟨S16384x1x1024, .f32⟩
  | .hbm, ⟨4, _⟩ => ⟨S16384x1024, .f32⟩
  | .hbm, ⟨5, _⟩ => ⟨S4x4096x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .smem, ⟨0, _⟩ => ⟨S16384, .i32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16384], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x4096_S16384 : S4x4096.ShapeCasts S16384
  shapeCasts_S50257x1024_S50257x1x1024 : S50257x1024.ShapeCasts S50257x1x1024
  numel1_S1 : S1.numel = 1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  shapeCasts_S16384x1x1024_S16384x1024 : S16384x1x1024.ShapeCasts S16384x1024
  shapeCasts_S16384x1024_S4x4096x1024 : S16384x1024.ShapeCasts S4x4096x1024
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16384x1x1024.size a
  hwx0_1 : ∀ i : grid0.Coords, EltTy.bits .f32 = 32 ∨ (Rect.block (s := S16384x1x1024) S1x1x1024.size (cc0_transform_1 i) (hinb0_1 i)).WholeWords (EltTy.packing .f32)

variable [Facts₀]

abbrev spec0_0 : Pipeline.WinSpec sig grid0.rank :=
  Pipeline.WinSpec.ofSpec (Memref.whole main_v1) S1x1x1024.size reads0_0 false false 2 stage0_0 sem0_0 nbuf0_0 hstage0_0

abbrev spec0_1 : Pipeline.WinSpec sig grid0.rank :=
  Pipeline.WinSpec.ofSpec (Memref.whole main_v2) S1x1x1024.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x1024.size a ≤ S50257x1x1024.size a), EltTy.bits .f32 = 32 ∨ (Rect.block (s := S50257x1x1024) S1x1x1024.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S4x4096 : Shape := ⟨2, ![4, 4096]⟩
abbrev S50257x1024 : Shape := ⟨2, ![50257, 1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S50257x1024, .f32⟩
  | .hbm, ⟨2, _⟩ => ⟨S_, .i32⟩
  | .hbm, ⟨3, _⟩ => ⟨S4x4096, .i32⟩
  | .hbm, ⟨4, _⟩ => ⟨S4x4096, .i1⟩
  | .hbm, ⟨5, _⟩ => ⟨S_, .i32⟩
  | .hbm, ⟨6, _⟩ => ⟨S4x4096, .i32⟩
  | .hbm, ⟨7, _⟩ => ⟨S4x4096, .i32⟩
  | .hbm, ⟨8, _⟩ => ⟨S4x4096, .i32⟩
  | .hbm, ⟨9, _⟩ => ⟨S4x4096x1, .i32⟩
  | .hbm, ⟨10, _⟩ => ⟨S1, .i32⟩
  | .hbm, ⟨11, _⟩ => ⟨S_, .i32⟩
  | .hbm, ⟨12, _⟩ => ⟨S4x4096x1, .i32⟩
  | .hbm, ⟨13, _⟩ => ⟨S4x4096x1, .i1⟩
  | .hbm, ⟨14, _⟩ => ⟨S1x1x1, .i32⟩
  | .hbm, ⟨15, _⟩ => ⟨S4x4096x1, .i32⟩
  | .hbm, ⟨16, _⟩ => ⟨S4x4096x1, .i1⟩
  | .hbm, ⟨17, _⟩ => ⟨S4x4096x1, .i1⟩
  | .hbm, ⟨18, _⟩ => ⟨S_, .i1⟩
  | .hbm, ⟨19, _⟩ => ⟨S4x4096, .i1⟩
  | .hbm, ⟨20, _⟩ => ⟨S4x4096x1024, .f32⟩
  | .hbm, ⟨21, _⟩ => ⟨S4x4096x1024, .i1⟩
  | .hbm, ⟨22, _⟩ => ⟨S_, .f32⟩
  | .hbm, ⟨23, _⟩ => ⟨S4x4096x1024, .f32⟩
  | .hbm, ⟨24, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  gather_S50257x1024_S4x4096x1_S4x4096x1024_2_0_n_n_0_2_11024_wf : GatherDims.WF S50257x1024 S4x4096x1 S4x4096x1024 [2] [0] [] [0] [] 2 ![1, 1024]

variable [Facts₀]

def gather_S50257x1024_S4x4096x1_S4x4096x1024_2_0_n_n_0_2_11024 : GatherDims S50257x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S50257x1024_S4x4096x1_S4x4096x1024_2_0_n_n_0_2_11024_wf

class Facts : Prop extends Facts₀ where

variable [Facts]
-- ==== Proof.Spec.lean ====
/-
  The specification both programs are read against: an embedding lookup. For a table `w` of 50257 rows of 1024
  entries and a [4, 4096] array `idx` of row numbers, the result at (b, s, k) is `w[idx[b, s], k]`. The row number
  is the index word read as a natural and clipped to the last row; on words in range the clip does nothing, which is
  where both programs are compared.
-/
import Idealize.ShloMosaic.Lib.ValueIdx

noncomputable section

namespace Cert.Spec

open Idealize.ShloMosaic Idealize.ShloMosaic.ValueIdx

/-- The index array's shape, the table's and the result's. -/
abbrev SIdx : Shape := ⟨2, ![4, 4096]⟩
abbrev STab : Shape := ⟨2, ![50257, 1024]⟩
abbrev SOut : Shape := ⟨3, ![4, 4096, 1024]⟩

/-- Every index word names a row of the table: as a natural it is below 50257. -/
def InRange (idx : IVec SIdx 32) : Prop := ∀ i : SIdx.Idx, (idx i).toNat < 50257

/-- The row an index word names: the word as a natural, clipped to the last row. -/
def rowOf (x : BitVec 32) : Fin 50257 := ⟨min x.toNat 50256, by omega⟩

/-- On a word in range the clip does nothing. -/
theorem rowOf_val {x : BitVec 32} (h : x.toNat < 50257) : (rowOf x).val = x.toNat := by
  show min x.toNat 50256 = x.toNat
  omega

/-- THE LOOKUP: entry (b, s, k) of the result is entry k of the table's row `idx[b, s]`. -/
def rows {α : Type} (idx : IVec SIdx 32) (w : STab.Idx → α) : SOut.Idx → α :=
  fun j => w (ix2 (rowOf (idx (ix2 (j 0) (j 1)))) (j 2))

/-- The lookup at explicit coordinates. -/
theorem rows_apply {α : Type} (idx : IVec SIdx 32) (w : STab.Idx → α) (b : Fin 4) (s : Fin 4096) (k : Fin 1024) :
    rows idx w (ix3 b s k) = w (ix2 (rowOf (idx (ix2 b s))) k) := rfl

end Cert.Spec

end
-- ==== Proof.PreRange.lean ====
/-
  The precondition read back. Besides the table's finiteness it says, of every word of the index array, that as a
  signed 32-bit integer it is at least 0 and below 50257 (the number of rows of the table): the conjunction of the
  two comparisons, reduced by "and" over the whole array from the constant true, is true. A signed word that is at
  least 0 has its top bit clear, so it reads the same signed and unsigned, and the second comparison then bounds
  it as a natural: every index word, as a natural, is below 50257.
-/
import proofs.«402129_j35862976921833_2_alg».proof.Pre_finite_inputs
import proofs.«402129_j35862976921833_2_alg».proof.Proof.Spec
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx

/-- The scalar shape has one index. -/
instance : Subsingleton Cert.Pre_finite_inputs.S_.Idx := ⟨fun _ _ => funext fun d => d.elim0⟩

/-- A signed word that is at least 0 and below n (n below 2³¹) is, as a natural, below n. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  have hw : w.toNat < 2 ^ 31 := by
    unfold IntOp.cmpi at h0
    rw [StableHlo.Predicate.ofBool_eq_one_iff] at h0
    have z : (0#32 : BitVec 32).toInt = 0 := by decide
    simp only [BitVec.sle, decide_eq_true_eq, z] at h0
    rw [BitVec.toInt_eq_toNat_cond] at h0
    have := w.isLt
    split at h0 <;> omega
  have hb : (BitVec.ofNat 32 n).toNat = n := by
    rw [BitVec.toNat_ofNat]
    exact Nat.mod_eq_of_lt (by omega)
  have h := (StableHlo.Predicate.slt_iff_toNat hw (by rw [hb]; exact hn)).1 h1
  rwa [hb] at h

/-- THE PRECONDITION DECODED: every index word names a row of the table. -/
theorem inRange {F : FTy → Type} [FloatOps F] [Cert.Pre_finite_inputs.Facts] (idx : IVec Cert.Pre_finite_inputs.S4x4096 32)
    (w : FVec F Cert.Pre_finite_inputs.S50257x1024 .f32)
    (h : Cert.Pre_finite_inputs.fn (F := F) idx w = fun _ => 1#1) : Cert.Spec.InRange idx := by
  intro i
  have e := congrFun h ix0
  unfold Cert.Pre_finite_inputs.fn at e
  obtain ⟨-, e9⟩ := IntOp.andi_eq_one.1 e
  have e8 := Host.reduce_andi_all _ _ _ _ _ e9 i
  obtain ⟨e5, e7⟩ := IntOp.andi_eq_one.1 e8
  exact toNat_lt_of_signed _ 50257 (by decide) e5 e7

end Cert.PreRange

end
-- ==== Proof.KernelOk.lean ====
/-
  The side condition of the table-driven pipeline, from the precondition. The lookup's index map reads word t of
  the flattened index array and fetches that row of the table, so the pipeline asks that every such word, read as a
  natural, name one of the table's 50257 rows. The flattened index array is a reshape of the index argument: each
  of its words is a word of the argument, and the precondition bounds every word of the argument.
-/
import proofs.«402129_j35862976921833_2_alg».proof.Defs
import proofs.«402129_j35862976921833_2_alg».proof.Proof.Gen.Kernel.Frame
import proofs.«402129_j35862976921833_2_alg».proof.Proof.PreRange
import Idealize.ShloMosaic.Lib.StableHlo.Run

set_option maxRecDepth 16384

noncomputable section

namespace Cert.Kernel.OkOfPre

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The index table as the region finds it is the index argument flattened. -/
theorem table_eq (c : Dev nD) : (V m c main_v0 : S16384.Idx → Elt F .i32)
    = shapeCast S16384 (m ((c : Thread nD τ).loc main_arg0)) Facts₀.shapeCasts_S4x4096_S16384 := by
  show StableHlo.after hostOps0 (fun b => m (c, b)) (Proc.devRef .tc main_v0) = _
  after_results
  rfl

/-- Every word of the table is a word of the index argument, so in range when those are. -/
theorem table_lt (hR : Cert.Spec.InRange (m (((0 : Dev nD) : Thread nD τ).loc main_arg0))) (x : S16384.Idx) :
    ((tbl m 0 : S16384.Idx → BitVec 32) x).toNat < 50257 := by
  show ((V m 0 main_v0 : S16384.Idx → Elt F .i32) x).toNat < 50257
  rw [table_eq]
  exact hR _

/-- THE SIDE CONDITION from the index range: at every grid point window 0's block (word, 0, 0) of unit rows lies inside
    the [50257, 1, 1024] table, and an f32 transfer is word-exact. -/
theorem ok_of_range (hR : Cert.Spec.InRange (m (((0 : Dev nD) : Thread nD τ).loc main_arg0))) : Ok m := by
  intro i
  obtain ⟨w, hw, e⟩ : ∃ w : BitVec 32, w.toNat < 50257
      ∧ cc0_transform_0 Facts₀.k0_off1_inb Facts₀.numel1_S1 (tbl m) i = ![w.toNat, 0, 0] := ⟨_, table_lt m hR _, rfl⟩
  refine ⟨fun a => ?_, Or.inl rfl⟩
  rw [e]
  match a with
  | ⟨0, _⟩ => show (w.toNat + 1) * 1 ≤ 50257; omega
  | ⟨1, _⟩ => show (0 + 1) * 1 ≤ 1; omega
  | ⟨2, _⟩ => show (0 + 1) * 1024 ≤ 1024; omega

/-- The side condition from the certificate's precondition. -/
theorem ok_of_pre [hP : Cert.Pre_finite_inputs.Facts] (m : (ℓ : Loc nD τ sig) → Buf (Elt Bits) ℓ) (h : Cert.Pre_Kernel m) :
    Ok m :=
  ok_of_range m (Cert.PreRange.inRange _ _ (h 0))

end Cert.Kernel.OkOfPre

end
-- ==== Proof.KernelIdealOk.lean ====
/-
  The side condition of the table-driven pipeline, from the precondition. The lookup's index map reads word t of
  the flattened index array and fetches that row of the table, so the pipeline asks that every such word, read as a
  natural, name one of the table's 50257 rows. The flattened index array is a reshape of the index argument: each
  of its words is a word of the argument, and the precondition bounds every word of the argument.
-/
import proofs.«402129_j35862976921833_2_alg».proof.Defs
import proofs.«402129_j35862976921833_2_alg».proof.Proof.Gen.KernelIdeal.Frame
import proofs.«402129_j35862976921833_2_alg».proof.Proof.PreRange
import Idealize.ShloMosaic.Lib.StableHlo.Run

set_option maxRecDepth 16384

noncomputable section

namespace Cert.KernelIdeal.OkOfPre

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The index table as the region finds it is the index argument flattened. -/
theorem table_eq (c : Dev nD) : (V m c main_v0 : S16384.Idx → Elt F .i32)
    = shapeCast S16384 (m ((c : Thread nD τ).loc main_arg0)) Facts₀.shapeCasts_S4x4096_S16384 := by
  show StableHlo.after hostOps0 (fun b => m (c, b)) (Proc.devRef .tc main_v0) = _
  after_results
  rfl

/-- Every word of the table is a word of the index argument, so in range when those are. -/
theorem table_lt (hR : Cert.Spec.InRange (m (((0 : Dev nD) : Thread nD τ).loc main_arg0))) (x : S16384.Idx) :
    ((tbl m 0 : S16384.Idx → BitVec 32) x).toNat < 50257 := by
  show ((V m 0 main_v0 : S16384.Idx → Elt F .i32) x).toNat < 50257
  rw [table_eq]
  exact hR _

/-- THE SIDE CONDITION from the index range: at every grid point window 0's block (word, 0, 0) of unit rows lies inside
    the [50257, 1, 1024] table, and an f32 transfer is word-exact. -/
theorem ok_of_range (hR : Cert.Spec.InRange (m (((0 : Dev nD) : Thread nD τ).loc main_arg0))) : Ok m := by
  intro i
  obtain ⟨w, hw, e⟩ : ∃ w : BitVec 32, w.toNat < 50257
      ∧ cc0_transform_0 Facts₀.k0_off1_inb Facts₀.numel1_S1 (tbl m) i = ![w.toNat, 0, 0] := ⟨_, table_lt m hR _, rfl⟩
  refine ⟨fun a => ?_, Or.inl rfl⟩
  rw [e]
  match a with
  | ⟨0, _⟩ => show (w.toNat + 1) * 1 ≤ 50257; omega
  | ⟨1, _⟩ => show (0 + 1) * 1 ≤ 1; omega
  | ⟨2, _⟩ => show (0 + 1) * 1024 ≤ 1024; omega

/-- The side condition from the certificate's precondition. -/
theorem ok_of_pre [hP : Cert.Pre_finite_inputs.Facts] (m : (ℓ : Loc nD τ sig) → Buf (Elt Ideal) ℓ) (h : Cert.Pre_KernelIdeal m) :
    Ok m :=
  ok_of_range m (Cert.PreRange.inRange _ _ (h 0))

end Cert.KernelIdeal.OkOfPre

end
-- ==== Proof.KernelIdealValue.lean ====
/-
  The value of the lookup kernel: what @main's result buffer holds after the run.

  The program reshapes the index argument [4, 4096] to a flat table of 16384 words kept in scalar memory, gives the
  table argument [50257, 1024] a unit middle axis, and runs a pipeline of 16384 points. At point t the input window
  fetches the block (word t, 0, 0) of unit rows of the reshaped table, that is row (word t) of the table; the body copies
  it to the output block; the output window writes it back as block (t, 0, 0) of a [16384, 1, 1024] array. Two reshapes
  then drop the unit axis and split the rows into [4, 4096].

  So: the body leaves its input block in the output's staging buffer (`out_A`); the block indices of the two windows at
  point t are (word t, 0, 0) and (t, 0, 0), for any admissible contents of the index table (`index0_eq`, `index1_eq`),
  and the pipeline's side condition bounds word t by the number of rows (`word_lt`); hence what point t writes back is
  block t of the array `G` whose row t is the table's row (word t) (`flushed_eq`); the 16384 blocks cover the array
  (`cover`), so the region's result array is `G` (`final`); and read through the two reshapes, with word 4096 b + s of
  the flat table being entry (b, s) of the index argument, @main's result is the lookup `Cert.Spec.rows` (`run`).
-/
import proofs.«402129_j35862976921833_2_alg».proof.Proof.Gen.KernelIdeal.Frame
import proofs.«402129_j35862976921833_2_alg».proof.Proof.KernelIdealOk
import proofs.«402129_j35862976921833_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

/-- The body copies its input block to its output block: whatever the output's staging buffer held, it ends holding the
    input block (one covering store of the loaded block, the shape cast between equal shapes the identity). -/
theorem out_A (c : Dev nD) (i : grid0.Coords) (a2 : Memref sig .tc .vmem S1x1x1024 .f32) (h2 : a2.IsWhole)
    (a3 : Memref sig .tc .vmem S1x1x1024 .f32) (h3 : a3.IsWhole) (x0 : Vec F S1x1x1024 .f32) (xt0 : TbBuf0 (F := F) c tbM0_0) :
    out0_A_1 c i a2 h2 a3 h3 x0 xt0 = x0 := by
  unfold out0_A_1
  rw [View.read_writes_eq_canon _ _ _ (cover0_A_1 c i a2 h2 a3 h3 x0 xt0)]
  unfold kernelRun0_A
  dsimp only
  sl_unfold_words
  rw [View.canon_unit_zero hz]
  unfold k0_pay1
  simp only [View.readAt_eq_ld, h2.read_unread, View.ld_unit_zero (S := S1x1x1024) hz, shapeCast_self]

/-- The grid has one axis: the point's one coordinate is the point's number. -/
theorem coords0 (t : Fin grid0.N) : (grid0.coords t 0).val = t.val := by
  have hN : grid0.N = 16384 := N_0
  have ht := t.isLt
  show t.val / grid0.stride 0 % 16384 = t.val
  rw [show grid0.stride 0 = 1 from by decide]
  omega

/-- The one index of a one-word rectangle of the index table at offset t is index t. -/
theorem unit_emb (t : Fin 16384) (off : Fin 1 → Nat) (hoff : off 0 = t.val) (inb : ∀ a, off a + S1.size a ≤ S16384.size a)
    (h1 : 0 < S1.numel) : (Rect.unit (s := S16384) off S1.size inb).emb (Shape.Idx.first h1) = ix1 t := by
  funext a
  apply Fin.ext
  match a with
  | ⟨0, _⟩ =>
    show off 0 + 1 * (Shape.Idx.first h1 (0 : Fin 1)).val = t.val
    have h0 : (Shape.Idx.first h1 (0 : Fin 1)).val = 0 := by
      have := (Shape.Idx.first h1 (0 : Fin 1)).isLt
      have e : S1.size (0 : Fin 1) = 1 := by decide
      omega
    rw [h0, hoff]; omega

/-- The table's index map at coordinate t: the row block is the table's word t read as a natural; the other two block
    indices are 0. Stated for any contents of the table. -/
theorem transform0_eq (pf : pre0.Contents (Elt F)) (i : grid0.Coords) (t : Fin 16384) (ht : (i 0).val = t.val) :
    cc0_transform_0 Facts₀.k0_off1_inb Facts₀.numel1_S1 pf i = ![((pf 0 : S16384.Idx → BitVec 32) (ix1 t)).toNat, 0, 0] := by
  unfold cc0_transform_0
  dsimp only
  have hoff : (![(Scalar.indexCast (BitVec.ofNat 32 (i 0).val)).toNat] : Fin 1 → Nat) 0 = t.val := by
    show (BitVec.ofNat 32 (i 0).val).toNat = t.val
    rw [BitVec.toNat_ofNat, ht]
    have := t.isLt
    omega
  exact congrArg (fun w : BitVec 32 => (![w.toNat, 0, 0] : Fin 3 → Nat)) (congrArg (pf 0) (unit_emb t _ hoff _ _))

/-- The output's index map at coordinate t: block t of the leading axis. -/
theorem transform1_eq (i : grid0.Coords) (t : Fin 16384) (ht : (i 0).val = t.val) : cc0_transform_1 i = ![t.val, 0, 0] := by
  unfold cc0_transform_1
  dsimp only
  have e : (BitVec.ofNat 32 (i 0).val).toNat = t.val := by
    rw [BitVec.toNat_ofNat, ht]
    have := t.isLt
    omega
  rw [e]
  rfl

/-- Point t as a number below 16384. -/
abbrev pt (a : (pcfg0 (F := F)).Adm) (t : Fin (cfg0 a).N) : Fin 16384 := ⟨t.val, by have h : (cfg0 a).N = 16384 := N_0; omega⟩

/-- Window 0's block index at point t, at any admissible contents of the table: (word t, 0, 0). -/
theorem index0_eq (a : (pcfg0 (F := F)).Adm) (t : Fin (cfg0 a).N) :
    ((cfg0 a).win 0).index t = ![((a.1 0 : S16384.Idx → BitVec 32) (ix1 (pt a t))).toNat, 0, 0] :=
  transform0_eq a.1 (grid0.coords t) (pt a t) (coords0 t)

/-- Window 1's block index at point t: (t, 0, 0). -/
theorem index1_eq (a : (pcfg0 (F := F)).Adm) (t : Fin (cfg0 a).N) :
    ((cfg0 a).win 1).index t = ![t.val, 0, 0] :=
  transform1_eq (grid0.coords t) (pt a t) (coords0 t)

/-- The side condition says every word the index map reads names a row of the table. -/
theorem word_lt (a : (pcfg0 (F := F)).Adm) (t : Fin (cfg0 a).N) :
    ((a.1 0 : S16384.Idx → BitVec 32) (ix1 (pt a t))).toNat < 50257 := by
  obtain ⟨h, -⟩ := a.2 (grid0.coords t)
  have h0 := h 0
  rw [transform0_eq a.1 (grid0.coords t) (pt a t) (coords0 t)] at h0
  have h1 : (((a.1 0 : S16384.Idx → BitVec 32) (ix1 (pt a t))).toNat + 1) * 1 ≤ 50257 := h0
  omega

theorem lt0 (i : S16384x1x1024.Idx) : (i 0).val < 16384 := (i 0).isLt

/-- What the kernel's result array holds: row i₀ is the table's row named by index word i₀ (the index array read
    row-major), clipped to the table. -/
def G (c : Dev nD) : S16384x1x1024.Idx → Elt F .f32 := fun i =>
  (m ((c : Thread nD τ).loc main_arg1) : S50257x1024.Idx → Elt F .f32)
    (ix2 (Cert.Spec.rowOf ((m ((c : Thread nD τ).loc main_arg0) : S4x4096.Idx → BitVec 32)
      (ix2 ⟨(i 0).val / 4096, by have := lt0 i; omega⟩ ⟨(i 0).val % 4096, Nat.mod_lt _ (by decide)⟩))) (i 2))

/-- The table array as the region finds it is the argument with a unit middle axis added. -/
theorem V_v1 (c : Dev nD) : (V m c main_v1 : S50257x1x1024.Idx → Elt F .f32)
    = shapeCast S50257x1x1024 (m ((c : Thread nD τ).loc main_arg1)) Facts₀.shapeCasts_S50257x1024_S50257x1x1024 := by
  show StableHlo.after hostOps0 (fun b => m (c, b)) (Proc.devRef .tc main_v1) = _
  after_results
  rfl

/-- Entry (r, 0, k) of the reshaped table is entry (r, k) of the table. -/
theorem V_v1_apply (c : Dev nD) (r : Fin 50257) (z : Fin 1) (k : Fin 1024) :
    (V m c main_v1 : S50257x1x1024.Idx → Elt F .f32) (ix3 r z k) = m ((c : Thread nD τ).loc main_arg1) (ix2 r k) := by
  rw [V_v1]
  refine shapeCast_apply _ _ _ _ ?_
  show (S50257x1024.rowMajor (ix2 r k)).val = (S50257x1x1024.rowMajor (ix3 r z k)).val
  rw [Shape.rowMajor_val_two, Shape.rowMajor_val_three]
  show r.val * 1024 + k.val = (r.val * 1 + z.val) * 1024 + k.val
  omega

/-- Word t of the flattened index array is entry (t / 4096, t % 4096) of the index array. -/
theorem tbl_apply (t : Fin 16384) :
    (tbl m 0 : S16384.Idx → BitVec 32) (ix1 t)
      = (m (((0 : Dev nD) : Thread nD τ).loc main_arg0) : S4x4096.Idx → BitVec 32)
          (ix2 ⟨t.val / 4096, by have := t.isLt; omega⟩ ⟨t.val % 4096, Nat.mod_lt _ (by decide)⟩) := by
  show (V m 0 main_v0 : S16384.Idx → Elt F .i32) (ix1 t) = _
  rw [Cert.KernelIdeal.OkOfPre.table_eq]
  refine shapeCast_apply _ _ _ _ ?_
  show (S4x4096.rowMajor (ix2 _ _)).val = (S16384.rowMajor (ix1 t)).val
  rw [Shape.rowMajor_val_two, Shape.rowMajor_val_one]
  show t.val / 4096 * 4096 + t.val % 4096 = t.val
  omega

/-- Where window 0's block at point t sits in the reshaped table: row (word t), at any admissible contents. -/
theorem emb0 (a : (pcfg0 (F := F)).Adm) (t : Fin (cfg0 a).N) (y : S1x1x1024.Idx) :
    (((cfg0 a).win 0).blk t).view.emb y
      = ix3 (⟨((a.1 0 : S16384.Idx → BitVec 32) (ix1 (pt a t))).toNat, word_lt a t⟩ : Fin 50257) (0 : Fin 1)
          (⟨(y 2).val, (y 2).isLt⟩ : Fin 1024) := by
  have hy0 : (y 0).val < 1 := (y 0).isLt
  have hy1 : (y 1).val < 1 := (y 1).isLt
  funext d
  apply Fin.ext
  match d with
  | ⟨0, _⟩ =>
    show ((cfg0 a).win 0).index t (0 : Fin 3) * 1 + 1 * (y 0).val = _
    rw [index0_eq a t]
    show ((a.1 0 : S16384.Idx → BitVec 32) (ix1 (pt a t))).toNat * 1 + 1 * (y 0).val = ((a.1 0 : S16384.Idx → BitVec 32) (ix1 (pt a t))).toNat
    omega
  | ⟨1, _⟩ =>
    show ((cfg0 a).win 0).index t (1 : Fin 3) * 1 + 1 * (y 1).val = 0
    rw [index0_eq a t]
    show 0 * 1 + 1 * (y 1).val = 0
    omega
  | ⟨2, _⟩ =>
    show ((cfg0 a).win 0).index t (2 : Fin 3) * 1024 + 1 * (y 2).val = (y 2).val
    rw [index0_eq a t]
    show 0 * 1024 + 1 * (y 2).val = (y 2).val
    omega

/-- Where window 1's block at point t sits in the result array: row t. -/
theorem emb1 (a : (pcfg0 (F := F)).Adm) (t : Fin (cfg0 a).N) (y : S1x1x1024.Idx) :
    (((cfg0 a).win 1).blk t).view.emb y = ix3 (pt a t) (0 : Fin 1) (⟨(y 2).val, (y 2).isLt⟩ : Fin 1024) := by
  have hy0 : (y 0).val < 1 := (y 0).isLt
  have hy1 : (y 1).val < 1 := (y 1).isLt
  funext d
  apply Fin.ext
  match d with
  | ⟨0, _⟩ =>
    show ((cfg0 a).win 1).index t (0 : Fin 3) * 1 + 1 * (y 0).val = t.val
    rw [index1_eq a t]
    show t.val * 1 + 1 * (y 0).val = t.val
    omega
  | ⟨1, _⟩ =>
    show ((cfg0 a).win 1).index t (1 : Fin 3) * 1 + 1 * (y 1).val = 0
    rw [index1_eq a t]
    show 0 * 1 + 1 * (y 1).val = 0
    omega
  | ⟨2, _⟩ =>
    show ((cfg0 a).win 1).index t (2 : Fin 3) * 1024 + 1 * (y 2).val = (y 2).val
    rw [index1_eq a t]
    show 0 * 1024 + 1 * (y 2).val = (y 2).val
    omega

/-- Row t of the lookup, spelled out. -/
theorem G_row (c : Dev nD) (t : Fin 16384) (z : Fin 1) (k : Fin 1024) :
    G m c (ix3 t z k) = (m ((c : Thread nD τ).loc main_arg1) : S50257x1024.Idx → Elt F .f32)
      (ix2 (Cert.Spec.rowOf ((m ((c : Thread nD τ).loc main_arg0) : S4x4096.Idx → BitVec 32)
        (ix2 ⟨t.val / 4096, by have := t.isLt; omega⟩ ⟨t.val % 4096, Nat.mod_lt _ (by decide)⟩))) k) := rfl

/-- WHAT POINT t WRITES BACK is block t of the lookup: the body copies the block the index map chose, row (word t) of the
    table, and word t is in range by the side condition. -/
theorem flushed_eq (hO : Ok m) (c : Dev nD) (t : Fin (cfgM m hO).N) :
    (dats m hO 0 c).flushed 1 t = (((cfgM m hO).win 1).blk t).view.read (Elt F) (G m c) := by
  obtain rfl : c = 0 := Subsingleton.elim _ _
  show ((cfgM m hO).win 1).cut (grid0.coords t) ((dats m hO 0 0).after 1 t) = _
  rw [after0_1]
  unfold outsAt0
  funext y
  refine (congrFun (out_A 0 (grid0.coords t) (ms0_0 m hO t) (hs0_0 m hO t) (ms0_1 m hO t) (hs0_1 m hO t) (iblk m hO 0 0 t) (tbl m 0)) _).trans ?_
  unfold iblk
  show (V m 0 main_v1 : S50257x1x1024.Idx → Elt F .f32) ((((cfgM m hO).win 0).blk t).view.emb y)
     = G m 0 ((((cfgM m hO).win 1).blk t).view.emb y)
  rw [emb0 (adm m hO) t y, emb1 (adm m hO) t y, V_v1_apply, G_row, ← tbl_apply m (pt (adm m hO) t)]
  exact congrArg (fun r : Fin 50257 => (m (((0 : Dev nD) : Thread nD τ).loc main_arg1) : S50257x1024.Idx → Elt F .f32) (ix2 r _))
    (Fin.ext (Cert.Spec.rowOf_val (word_lt (adm m hO) t)).symm)

/-- Every index of the result array is in the block of the point its row names: it is that block's element (0, 0, i₂). -/
theorem cover (a : (pcfg0 (F := F)).Adm) (i : S16384x1x1024.Idx) :
    ∃ t : Fin (cfg0 a).N, ((cfg0 a).win 1).flush t = true ∧ i ∈ (((cfg0 a).win 1).blk t).view.set := by
  have hN : (cfg0 a).N = 16384 := N_0
  have hi0 : (i 0).val < 16384 := (i 0).isLt
  have hi1 : (i 1).val < 1 := (i 1).isLt
  obtain ⟨t, ht⟩ : ∃ t : Fin (cfg0 a).N, t.val = (i 0).val := ⟨⟨(i 0).val, by omega⟩, rfl⟩
  refine ⟨t, flush0_1 a t, ?_⟩
  have e : i = (((cfg0 a).win 1).blk t).view.emb (ix3 (0 : Fin 1) (0 : Fin 1) (i 2) : S1x1x1024.Idx) := by
    rw [emb1]
    funext d
    apply Fin.ext
    match d with
    | ⟨0, _⟩ => exact ht.symm
    | ⟨1, _⟩ => show (i 1).val = 0; omega
    | ⟨2, _⟩ => rfl
  rw [e]
  exact View.emb_mem_set _ _

/-- THE RESULT ARRAY OF THE REGION after the run is the lookup, row by row. -/
theorem final (hO : Ok m) (c : Dev nD) : (dats m hO 0 c).arrAt 1 (cfgM m hO).N = G m c :=
  (dats m hO 0 c).arrAt_eq_of_cover 1 (G m c) (fun t _ => flushed_eq m hO c t) (cover (adm m hO))

/-- The result of @main: the region's result array with its unit axis dropped and its rows split into [4, 4096]. -/
theorem tail_eq (hO : Ok m) (c : Dev nD) :
    (Pipeline.afterTail pcfgs (fun _ => adm m hO) (dats m hO) 0 (V0 m) [hostOps1] c main_v4 : S4x4096x1024.Idx → Elt F .f32)
      = shapeCast S4x4096x1024 (shapeCast S16384x1024 (G m c) Facts₀.shapeCasts_S16384x1x1024_S16384x1024)
          Facts₀.shapeCasts_S16384x1024_S4x4096x1024 := by
  unfold Pipeline.afterTail
  show StableHlo.after hostOps1 _ (Proc.devRef .tc main_v4) = _
  after_results
  have hW : Pipeline.withArrays (Pipeline.pin pcfgs (fun _ => adm m hO) 0).spec c (V0 m c)
      (fun w => (dats m hO 0 c).arrAt w (Pipeline.pin pcfgs (fun _ => adm m hO) 0).N) (Proc.devRef .tc main_v2) = G m c :=
    (Pipeline.withArrays_arr spec0 winFacts0.arr_inj c _ _ 1).trans (final m hO c)
  rw [hW]
  rfl

/-- Entry (b, s, k) of the twice-reshaped array is entry (4096 b + s, 0, k) of the array: the same row-major position. -/
theorem tail_apply (X : S16384x1x1024.Idx → Elt F .f32) (b : Fin 4) (s : Fin 4096) (k : Fin 1024) :
    shapeCast S4x4096x1024 (shapeCast S16384x1024 X Facts₀.shapeCasts_S16384x1x1024_S16384x1024)
        Facts₀.shapeCasts_S16384x1024_S4x4096x1024 (ix3 b s k)
      = X (ix3 (⟨4096 * b.val + s.val, by have := b.isLt; have := s.isLt; omega⟩ : Fin 16384) (0 : Fin 1) k) := by
  refine (shapeCast_apply _ _ (ix3 b s k) (ix2 (⟨4096 * b.val + s.val, by have := b.isLt; have := s.isLt; omega⟩ : Fin 16384) k) ?_).trans ?_
  · show (S16384x1024.rowMajor (ix2 _ k)).val = (S4x4096x1024.rowMajor (ix3 b s k)).val
    rw [Shape.rowMajor_val_two, Shape.rowMajor_val_three]
    show (4096 * b.val + s.val) * 1024 + k.val = (b.val * 4096 + s.val) * 1024 + k.val
    omega
  · refine shapeCast_apply _ _ _ _ ?_
    show (S16384x1x1024.rowMajor (ix3 _ (0 : Fin 1) k)).val = (S16384x1024.rowMajor (ix2 _ k)).val
    rw [Shape.rowMajor_val_two, Shape.rowMajor_val_three]
    show ((4096 * b.val + s.val) * 1 + 0) * 1024 + k.val = (4096 * b.val + s.val) * 1024 + k.val
    omega

/-- @main's result is the lookup: entry (b, s, k) is entry k of the table's row named by index word (b, s). -/
theorem result_eq (c : Dev nD) :
    shapeCast S4x4096x1024 (shapeCast S16384x1024 (G m c) Facts₀.shapeCasts_S16384x1x1024_S16384x1024)
        Facts₀.shapeCasts_S16384x1024_S4x4096x1024
      = Cert.Spec.rows (m ((c : Thread nD τ).loc main_arg0)) (m ((c : Thread nD τ).loc main_arg1)) := by
  funext j
  obtain ⟨b, s, k, rfl⟩ : ∃ (b : Fin 4) (s : Fin 4096) (k : Fin 1024), j = ix3 b s k := ⟨j 0, j 1, j 2, eq_ix3 j⟩
  rw [tail_apply, G_row, Cert.Spec.rows_apply]
  have hb := b.isLt
  have hs := s.isLt
  have e : (ix2 (⟨(4096 * b.val + s.val) / 4096, by omega⟩ : Fin 4) (⟨(4096 * b.val + s.val) % 4096, Nat.mod_lt _ (by decide)⟩ : Fin 4096)
      : S4x4096.Idx) = ix2 b s := by
    funext d
    match d with
    | ⟨0, _⟩ => exact Fin.ext (by show (4096 * b.val + s.val) / 4096 = b.val; omega)
    | ⟨1, _⟩ => exact Fin.ext (by show (4096 * b.val + s.val) % 4096 = s.val; omega)
  exact congrArg (fun i : S4x4096.Idx => (m ((c : Thread nD τ).loc main_arg1) : S50257x1024.Idx → Elt F .f32)
    (ix2 (Cert.Spec.rowOf ((m ((c : Thread nD τ).loc main_arg0) : S4x4096.Idx → BitVec 32) i)) k)) e

/-- THE RUN, READ: under the pipeline's side condition every weakly fair execution of @main terminates with the result
    buffer at the lookup of the two arguments' launch contents, and the arguments unchanged. -/
theorem run (hO : Ok m) : θ_run defs (onTc (τ := τ) (main (F := F))) ⟨m, fun _ => 0, ρ⟩ (fun r => ∀ c : Dev nD,
      r.2.mem ((c.tc : Thread nD τ).loc main_v4)
          = Cert.Spec.rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v4 (by decide : main_v4 ∈ Pipeline.restRefs sig spec0)).trans ((tail_eq m hO c).trans (result_eq m c)),
        ((h c).2 main_arg0 (by decide : main_arg0 ∈ Pipeline.restRefs sig spec0)).trans (W_main_arg0 m hO (dats m hO) c),
        ((h c).2 main_arg1 (by decide : main_arg1 ∈ Pipeline.restRefs sig spec0)).trans (W_main_arg1 m hO (dats m hO) c)⟩)
    (run_main m ρ hO)

end Cert.KernelIdeal.KValue

end
-- ==== Proof.LibGatherRows3.lean ====
/-
  A row gather read at an index. `jnp.take(table, idx, axis=0)` of a table `[N, C]` at an integer array `idx : [A, B]`
  lowers to a `stablehlo.gather` over the indices as a column `[A, B, 1]`: offset_dims `[2]`, collapsed_slice_dims
  `[0]`, start_index_map `[0]`, index_vector_dim 2 and slice sizes `[1, C]`. Every result element `(a, b, k)` is the
  table's entry `k` of one row: the row whose number is the start index `idx[a, b, 0]` read as a signed integer and
  clamped into `[0, N − 1]`, so that the one-row slice fits the table.
-/
import Idealize.ShloMosaic.Lib.ValueIdx

noncomputable section

namespace Idealize.ShloMosaic.GatherRows3

open Idealize.ShloMosaic Idealize.ShloMosaic.ValueIdx

variable {α : Type}

/-- The dimension numbers of the row gather for a table `[N, C]`, start indices `[A, B, 1]` and a result `[A, B, C]`;
    their conditions `wf` are decided on a program's literal shapes. -/
abbrev rowsDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The row axis is the one the start index names: its slice starts at the start index `idx[a, b, 0]`, read signed
    and clamped so that one row fits. -/
theorem rowsDims_start_row {N C A B w : Nat}
    (wf : GatherDims.WF ⟨2, ![N, C]⟩ ⟨3, ![A, B, 1]⟩ ⟨3, ![A, B, C]⟩ [2] [0] [] [0] [] 2 ![1, C])
    (idx : IVec ⟨3, ![A, B, 1]⟩ w) (a : Fin A) (b : Fin B) (k : Fin C) :
    (rowsDims N C A B wf).start (ix3 a b k) idx 0 = min (idx (ix3 a b (0 : Fin 1))).toInt.toNat (N - 1) := by
  unfold GatherDims.start
  rw [dif_pos (show (0 : Fin 2) ∈ (rowsDims N C A B wf).startIndexMap from List.mem_singleton.mpr rfl)]
  have hsi : (rowsDims N C A B wf).siIdx (ix3 a b k) ⟨List.idxOf (0 : Fin 2) (rowsDims N C A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- The column axis is not start-indexed: its slice starts at 0. -/
theorem rowsDims_start_col {N C A B w : Nat}
    (wf : GatherDims.WF ⟨2, ![N, C]⟩ ⟨3, ![A, B, 1]⟩ ⟨3, ![A, B, C]⟩ [2] [0] [] [0] [] 2 ![1, C])
    (idx : IVec ⟨3, ![A, B, 1]⟩ w) (j : (⟨3, ![A, B, C]⟩ : Shape).Idx) :
    (rowsDims N C A B wf).start j idx 1 = 0 := by
  unfold GatherDims.start
  rw [dif_neg (show (1 : Fin 2) ∉ ([0] : List (Fin 2)) by decide)]

/-- THE ROW GATHER READ AT `(a, b, k)`: entry `k` of the table's row `idx[a, b, 0]`, the row number read signed and
    clamped into `[0, N − 1]`. -/
theorem gather_rows_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (k : Fin C) :
    Host.gather (rowsDims N C A B wf) x idx (ix3 a b k)
      = x (ix2 (⟨min (idx (ix3 a b (0 : Fin 1))).toInt.toNat (N - 1), by omega⟩ : Fin N) k) := by
  unfold Host.gather
  congr 1
  funext c
  refine Fin.ext ?_
  match c with
  | ⟨0, _⟩ =>
    -- the row axis: collapsed, so no offset; no batching axis
    show (rowsDims N C A B wf).start (ix3 a b k) idx 0 + (rowsDims N C A B wf).batchCoord (ix3 a b k) 0
      + (rowsDims N C A B wf).offCoord (ix3 a b k) 0 = _
    rw [GatherDims.batchCoord_eq_zero _ _ _ List.not_mem_nil,
      GatherDims.offCoord_eq_zero _ _ _ (fun h => ((GatherDims.mem_sKept _ _).mp h).1 (List.mem_singleton.mpr rfl)),
      rowsDims_start_row]
    rfl
  | ⟨1, _⟩ =>
    -- the column axis: the slice starts at 0 and the offset is the result's last coordinate
    show (rowsDims N C A B wf).start (ix3 a b k) idx 1 + (rowsDims N C A B wf).batchCoord (ix3 a b k) 1
      + (rowsDims N C A B wf).offCoord (ix3 a b k) 1 = _
    rw [GatherDims.batchCoord_eq_zero _ _ _ List.not_mem_nil, rowsDims_start_col]
    show 0 + 0 + (rowsDims N C A B wf).offCoord (ix3 a b k) 1 = k.val
    rw [Nat.zero_add]
    unfold GatherDims.offCoord
    rw [dif_pos (show (1 : Fin 2) ∈ (rowsDims N C A B wf).sKept from List.mem_singleton.mpr rfl)]
    rfl

end Idealize.ShloMosaic.GatherRows3

end
-- ==== Proof.RefTerm.lean ====
/-
  The value of the reference. @_take wraps a negative index word by the table's height (through @_where's select),
  lays the words out as a column, tests each against the table's first and last row, gathers whole rows of the table
  at the column, and keeps a gathered row where the test holds, the NaN constant elsewhere. Here that composed term is
  named piece by piece and read at an index: on index words in range no wrap happens, the test holds everywhere and
  the gather's clamp does nothing, so the term is the lookup `Cert.Spec.rows`.
-/
import proofs.«402129_j35862976921833_2_alg».proof.Proof.Gen.ReferenceIdeal
import proofs.«402129_j35862976921833_2_alg».proof.Proof.Spec
import proofs.«402129_j35862976921833_2_alg».proof.Proof.LibGatherRows3
import Idealize.ShloMosaic.Lib.StableHlo.Predicate
import Idealize.ShloMosaic.Lib.Pipeline.Value
import Idealize.ShloMosaic.Lib.ReduceAll
import Idealize.ShloMosaic.Lib.Affine
import Idealize.ShloMosaic.Lib.ValueIdx

noncomputable section

namespace Cert.ReferenceIdeal.RefValue

open Cert.ReferenceIdeal Cert.ReferenceIdeal.Gen Idealize.ShloMosaic Idealize.ShloMosaic.ValueIdx
  Idealize.ShloMosaic.StableHlo.Predicate

variable {F : FTy → Type} [FloatOps F]

/-! ## The composed term, piece by piece -/

/-- The index words with a negative one wrapped by the table's height: `select (idx <s 0) (idx + 50257) idx`. -/
def wrapped (idx : IVec S4x4096 32) : IVec S4x4096 32 :=
  select (cmpi .slt idx (broadcastInDim S4x4096 ![] bcast_S_S4x4096 (constantI S_ 32 0#32)))
    (addi idx (broadcastInDim S4x4096 ![] bcast_S_S4x4096 (constantI S_ 32 50257#32))) idx

/-- The wrapped words as a column `[4, 4096, 1]`: the gather's start indices. -/
def col (idx : IVec S4x4096 32) : IVec S4x4096x1 32 :=
  broadcastInDim S4x4096x1 ![0, 1] bcast_S4x4096_S4x4096x1_0_1 (wrapped idx)

/-- The range test on the column, word by word: `0 ≤s i' ∧ i' ≤s 50256`. -/
def test (idx : IVec S4x4096 32) : IVec S4x4096x1 1 :=
  andi (cmpi .sge (col idx) (broadcastInDim S4x4096x1 ![] bcast_S_S4x4096x1 (constantI S_ 32 0#32)))
    (cmpi .sle (col idx) (broadcastInDim S4x4096x1 ![0, 1, 2] bcast_S1x1x1_S4x4096x1_0_1_2
      (broadcastInDim S1x1x1 ![2] bcast_S1_S1x1x1_2 (constantI S1 32 50256#32))))

/-- The test and-reduced over the column's unit axis, from the constant true. -/
def inTable (idx : IVec S4x4096 32) : IVec S4x4096 1 :=
  Host.reduce IntOp.andi (test idx) (constantI S_ 1 1#1) reducesTo_S4x4096x1_S4x4096_d2 h_S_

/-- @_take's result: the gathered row where the test holds, the NaN constant elsewhere. -/
def taken (idx : IVec S4x4096 32) (w : FVec F S50257x1024 .f32) : FVec F S4x4096x1024 .f32 :=
  select (broadcastInDim S4x4096x1024 ![0, 1] bcast_S4x4096_S4x4096x1024_0_1 (inTable idx))
    (Host.gather gather_S50257x1024_S4x4096x1_S4x4096x1024_2_0_n_n_0_2_11024 w (col idx))
    (broadcastInDim S4x4096x1024 ![] bcast_S_S4x4096x1024 (constant S_ .f32 0x7FC00000#32))

/-! ## Words in range

A word below 50257 is below 2³¹: read signed it is its value, it is not negative, and it lies between the table's
first and last row. -/

/-- A word in range is not negative as a signed word. -/
theorem not_slt_zero {x : BitVec 32} (h : x.toNat < 50257) : ¬IntOp.cmpi .slt x 0#32 = 1#1 := by
  rw [slt_iff_toNat (by omega) (by decide)]
  exact Nat.not_lt_zero _

/-- A word in range is at least the first row, as signed words. -/
theorem sge_zero {x : BitVec 32} (h : x.toNat < 50257) : IntOp.cmpi .sge x 0#32 = 1#1 :=
  (sge_iff_toNat (by omega) (by decide)).2 (Nat.zero_le _)

/-- A word in range is at most the last row, as signed words. -/
theorem sle_last {x : BitVec 32} (h : x.toNat < 50257) : IntOp.cmpi .sle x 50256#32 = 1#1 := by
  have e : (50256#32 : BitVec 32).toNat = 50256 := by decide
  exact (sle_iff_toNat (by omega) (by omega)).2 (by omega)

/-- Read signed, a word in range is its value. -/
theorem toInt_toNat {x : BitVec 32} (h : x.toNat < 50257) : x.toInt.toNat = x.toNat := by
  rw [toInt_eq_toNat_of_lt (by omega)]
  exact Int.toNat_natCast _

/-! ## The pieces at an index -/

/-- No wrap on a word in range. -/
theorem wrapped_apply (idx : IVec S4x4096 32) (b : Fin 4) (s : Fin 4096) (h : (idx (ix2 b s)).toNat < 50257) :
    wrapped idx (ix2 b s) = idx (ix2 b s) := by
  show Scalar.select (IntOp.cmpi .slt (idx (ix2 b s)) 0#32) _ (idx (ix2 b s)) = _
  exact if_neg (not_slt_zero h)

/-- The column at `(b, s, u)` is the wrapped word at `(b, s)`. -/
theorem col_apply (idx : IVec S4x4096 32) (b : Fin 4) (s : Fin 4096) (u : Fin 1) :
    col idx (ix3 b s u) = wrapped idx (ix2 b s) := by
  unfold col
  exact broadcastInDim_apply _ _ _ _ (ix2 b s) (fun a => by
    match a with
    | ⟨0, _⟩ => rfl
    | ⟨1, _⟩ => rfl)

/-- The test holds at a word in range. -/
theorem test_apply (idx : IVec S4x4096 32) (b : Fin 4) (s : Fin 4096) (u : Fin 1) (h : (idx (ix2 b s)).toNat < 50257) :
    test idx (ix3 b s u) = 1#1 := by
  show IntOp.andi (IntOp.cmpi .sge (col idx (ix3 b s u)) 0#32) (IntOp.cmpi .sle (col idx (ix3 b s u)) 50256#32) = 1#1
  rw [col_apply, wrapped_apply idx b s h]
  exact IntOp.andi_eq_one.2 ⟨sge_zero h, sle_last h⟩

/-- With every word in range the test holds everywhere. -/
theorem test_all (idx : IVec S4x4096 32) (hR : Cert.Spec.InRange idx) (i : S4x4096x1.Idx) : test idx i = 1#1 := by
  obtain ⟨b, s, u, rfl⟩ : ∃ (b : Fin 4) (s : Fin 4096) (u : Fin 1), i = ix3 b s u := ⟨i 0, i 1, i 2, eq_ix3 i⟩
  exact test_apply idx b s u (hR (ix2 b s))

/-- A left fold by `and` from 1 that meets only 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; rfl
    show l.foldl (fun r n => IntOp.andi r (f n)) (IntOp.andi 1#1 (f a)) = 1#1
    rw [h1]
    exact foldl_andi_ones f hf l

/-- With every word in range the reduced test is 1 at every `(b, s)`. -/
theorem inTable_apply (idx : IVec S4x4096 32) (hR : Cert.Spec.InRange idx) (j : S4x4096.Idx) : inTable idx j = 1#1 := by
  unfold inTable
  rw [Host.reduce_eq_foldl]
  exact foldl_andi_ones (test idx) (test_all idx hR) _

/-- The gather at `(b, s, k)` on a word in range: entry `k` of the row the word names. -/
theorem gather_apply (idx : IVec S4x4096 32) (w : FVec F S50257x1024 .f32) (b : Fin 4) (s : Fin 4096) (k : Fin 1024)
    (h : (idx (ix2 b s)).toNat < 50257) :
    Host.gather gather_S50257x1024_S4x4096x1_S4x4096x1024_2_0_n_n_0_2_11024 w (col idx) (ix3 b s k) = w (ix2 (Cert.Spec.rowOf (idx (ix2 b s))) k) := by
  refine (GatherRows3.gather_rows_apply (N := 50257) (C := 1024) (A := 4) (B := 4096) (by decide)
    gather_S50257x1024_S4x4096x1_S4x4096x1024_2_0_n_n_0_2_11024_wf w (col idx) b s k).trans ?_
  refine congrArg (fun r : Fin 50257 => w (ix2 r k)) (Fin.ext ?_)
  show min (col idx (ix3 b s (0 : Fin 1))).toInt.toNat (50257 - 1) = min (idx (ix2 b s)).toNat 50256
  rw [col_apply, wrapped_apply idx b s h, toInt_toNat h]

/-- @_take's result at `(b, s, k)`, every word in range: the lookup. -/
theorem taken_apply (idx : IVec S4x4096 32) (w : FVec F S50257x1024 .f32) (hR : Cert.Spec.InRange idx)
    (b : Fin 4) (s : Fin 4096) (k : Fin 1024) :
    taken idx w (ix3 b s k) = w (ix2 (Cert.Spec.rowOf (idx (ix2 b s))) k) := by
  have hb : broadcastInDim S4x4096x1024 ![0, 1] bcast_S4x4096_S4x4096x1024_0_1 (inTable idx) (ix3 b s k)
      = inTable idx (ix2 b s) :=
    broadcastInDim_apply _ _ _ _ (ix2 b s) (fun a => by
      match a with
      | ⟨0, _⟩ => rfl
      | ⟨1, _⟩ => rfl)
  unfold taken
  rw [select_apply, hb, inTable_apply idx hR, select_one]
  exact gather_apply idx w b s k (hR (ix2 b s))

/-- THE VALUE: with every index word in range, @_take's result is the lookup. -/
theorem taken_eq_rows (idx : IVec S4x4096 32) (w : FVec F S50257x1024 .f32) (hR : Cert.Spec.InRange idx) :
    taken idx w = Cert.Spec.rows idx w := by
  funext j
  obtain ⟨b, s, k, rfl⟩ : ∃ (b : Fin 4) (s : Fin 4096) (k : Fin 1024), j = ix3 b s k := ⟨j 0, j 1, j 2, eq_ix3 j⟩
  rw [taken_apply idx w hR, Cert.Spec.rows_apply]

end Cert.ReferenceIdeal.RefValue

end
-- ==== Proof.RefRun.lean ====
/-
  The reference's run. @main calls @_take, which calls @_where: both bodies unfolded at their calls, @main is one
  straight line of twenty-three operations over the buffers of the call records. Run from any memory, the result
  buffer ends at the operations' composed term of the two arguments (named piece by piece beside this file), the
  arguments unchanged; with every index word in range that term is the lookup `Cert.Spec.rows`.
-/
import proofs.«402129_j35862976921833_2_alg».proof.Proof.Gen.ReferenceIdeal
import proofs.«402129_j35862976921833_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The straight line -/

/-- @main's operations in order, the two calls unfolded: @_take's twenty-two over the buffers of its call record, with
    @_where's one select in its place among them. -/
abbrev ops : List (HloOp τ sig (Elt F)) :=
  [ TRef.nullary main_call0.c (constantI S_ 32 0#32),
    TRef.unary main_call0.c main_call0.v0 (broadcastInDim S4x4096 ![] bcast_S_S4x4096),
    TRef.binary (.of main_arg0) main_call0.v0 main_call0.v1 (cmpi .slt),
    TRef.nullary main_call0.c_0 (constantI S_ 32 50257#32),
    TRef.unary main_call0.c_0 main_call0.v2 (broadcastInDim S4x4096 ![] bcast_S_S4x4096),
    TRef.binary (.of main_arg0) main_call0.v2 main_call0.v3 addi,
    TRef.ternary main_call0.v1 main_call0.v3 (.of main_arg0) main_call0.call0.v0 select,
    TRef.unary main_call0.call0.v0 main_call0.v5 (broadcastInDim S4x4096x1 ![0, 1] bcast_S4x4096_S4x4096x1_0_1),
    TRef.nullary main_call0.c_1 (constantI S1 32 50256#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg1) main_call0.v5 main_call0.v13 (fun x i => Host.gather gather_S50257x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select ]

/-- @main is that straight line: the two functions' bodies unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## What the line leaves -/

attribute [local irreducible] Host.reduce Host.gather in
/-- After the straight line the result buffer holds the composed term of the two arguments' contents: the fold
    unrolled, each operation's result read at its own buffer, the typed references' transports cancelled in pairs.
    The reduce and the gather stay folded: the equation never looks inside them. -/
theorem out_eq (V : Valuation τ sig (Elt F)) :
    after ops V (main_v0 : DevRef τ sig) = taken (V (main_arg0 : DevRef τ sig)) (V (main_arg1 : DevRef τ sig)) := by
  after_results
  simp only [cast_cast, cast_eq]
  rfl

/-- No operation of the line writes the index argument. -/
theorem arg0_eq (V : Valuation τ sig (Elt F)) :
    after ops V (main_arg0 : DevRef τ sig) = V (main_arg0 : DevRef τ sig) := by
  after_results

/-- No operation of the line writes the table. -/
theorem arg1_eq (V : Valuation τ sig (Elt F)) :
    after ops V (main_arg1 : DevRef τ sig) = V (main_arg1 : DevRef τ sig) := by
  after_results

/-- On every device, for any float values, from any memory with zero counters: every weakly fair execution of @main
    terminates with the result buffer at the composed term of the arguments' launch contents, the arguments
    unchanged. -/
theorem run_raw (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

/-! ## The run, on index words in range -/

/-- At the ideal instance, from any memory with zero counters whose index argument holds only row numbers of the table:
    every weakly fair execution of @main terminates with the result buffer at the lookup of the two arguments' launch
    contents, the arguments unchanged. -/
theorem run (m : (ℓ : Loc nD τ sig) → Buf (Elt Ideal) ℓ) (ρ : Dev nD → PrngReg)
    (hR : ∀ c : Dev nD, Cert.Spec.InRange (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v0) = Cert.Spec.rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (taken_eq_rows _ _ (hR c)), (h c).2.1, (h c).2.2⟩) (run_raw m ρ)

end Cert.ReferenceIdeal.RefValue

end
-- ==== Proof.lean ====
/-
  The certificate of the embedding lookup: `Cert.Claim`.

  The kernel gathers rows of a table f32[50257, 1024] at the words of an index array i32[4, 4096] by a pipeline whose input
  window's index map reads the flattened index array from scalar memory: grid point t fetches the table's row (word t)
  and the body copies it to row t of the result. The reference is `jnp.take(table, idx, axis=0)`. The precondition
  says the table is finite and every index word w satisfies 0 ≤ w < 50257 as a signed integer.

  * The three frames. The kernel's two programs run under the pipeline's side condition "every word the index map reads
    names a row of the table", which the precondition gives word by word (`OkOfPre.ok_of_pre`, at both instances). The
    reference's frame is its run with the result dropped.
  * `preserves`: the ideal pass rewrote nothing, the conjunct is `True`.
  * `algebraic`: both programs end with the result buffer at ONE function of the arguments, the lookup
    `Cert.Spec.rows idx table` — entry (b, s, k) is entry k of row idx[b, s]. For the kernel this is read off the
    pipeline's run block by block (`KValue.run`); for the reference, on words in range the wrap of negative words, the
    range test with its NaN fill and the gather's clamp all do nothing (`RefValue.run`). No arithmetic on extended reals
    is involved: the result's entries are entries of the table, and finiteness of the table is not used.
-/
import proofs.«402129_j35862976921833_2_alg».proof.Defs
import proofs.«402129_j35862976921833_2_alg».proof.Proof.Gen.Kernel
import proofs.«402129_j35862976921833_2_alg».proof.Proof.Gen.Kernel.Frame
import proofs.«402129_j35862976921833_2_alg».proof.Proof.Gen.KernelIdeal
import proofs.«402129_j35862976921833_2_alg».proof.Proof.Gen.KernelIdeal.Frame
import proofs.«402129_j35862976921833_2_alg».proof.Proof.Gen.ReferenceIdeal
import proofs.«402129_j35862976921833_2_alg».proof.Proof.Gen.Pre_finite_inputs
import proofs.«402129_j35862976921833_2_alg».proof.Proof.PreRange
import proofs.«402129_j35862976921833_2_alg».proof.Proof.KernelOk
import proofs.«402129_j35862976921833_2_alg».proof.Proof.KernelIdealOk
import proofs.«402129_j35862976921833_2_alg».proof.Proof.KernelIdealValue
import proofs.«402129_j35862976921833_2_alg».proof.Proof.RefRun
import Idealize.ShloMosaic.Adequacy
import Idealize.ShloMosaic.Init

noncomputable section

namespace Cert.Proof

open Idealize.ShloMosaic Idealize.SL.Sem

/-- The kernel as printed runs: the side condition of its table-driven pipeline follows from the precondition. -/
theorem frame_k [hP : Cert.Pre_finite_inputs.Facts] :
    Cert.frame_Kernel (hKernel := Cert.Kernel.Gen.facts) (hPre_finite_inputs := hP) :=
  fun m ρ h => Cert.Kernel.Gen.frame m ρ (Cert.Kernel.OkOfPre.ok_of_pre m h)

/-- So does its idealization. -/
theorem frame_ki [hP : Cert.Pre_finite_inputs.Facts] :
    Cert.frame_KernelIdeal (hKernelIdeal := Cert.KernelIdeal.Gen.facts) (hPre_finite_inputs := hP) :=
  fun m ρ h => Cert.KernelIdeal.Gen.frame m ρ (Cert.KernelIdeal.OkOfPre.ok_of_pre m h)

/-- The index words of the reference's memory are in range under the precondition. -/
theorem ref_range [hP : Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Spec.InRange (m ((c.tc : Thread Cert.ReferenceIdeal.nD Cert.ReferenceIdeal.τ).loc Cert.ReferenceIdeal.main_arg0)) :=
  Cert.PreRange.inRange _ _ (h c)

/-- The reference runs: its run with the result dropped. -/
theorem frame_ri [hP : Cert.Pre_finite_inputs.Facts] :
    Cert.frame_ReferenceIdeal (hReferenceIdeal := Cert.ReferenceIdeal.Gen.facts) (hPre_finite_inputs := hP) :=
  fun m ρ h => (θ_run Cert.ReferenceIdeal.defs _ _).mono (fun _ hr c => (hr c).2)
    (Cert.ReferenceIdeal.RefValue.run m ρ (ref_range m h))

/-- The ideal pass rewrote no operation. -/
theorem preserves : Cert.preserves_Kernel_KernelIdeal := trivial

/-- Both idealized programs end at the lookup of their arguments, and the arguments agree. -/
theorem algebraic [hP : Cert.Pre_finite_inputs.Facts] :
    Cert.algebraic_KernelIdeal_ReferenceIdeal (hKernelIdeal := Cert.KernelIdeal.Gen.facts)
      (hReferenceIdeal := Cert.ReferenceIdeal.Gen.facts) (hPre_finite_inputs := hP) := by
  intro m ρ m' ρ' hpre hagree
  have hR : ∀ c : Dev Cert.KernelIdeal.nD, Cert.Spec.InRange
      (m ((c.tc : Thread Cert.KernelIdeal.nD Cert.KernelIdeal.τ).loc Cert.KernelIdeal.main_arg0)) :=
    fun c => Cert.PreRange.inRange _ _ (hpre c)
  refine ⟨fun c => Cert.Spec.rows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run (F := Ideal) m ρ (Cert.KernelIdeal.OkOfPre.ok_of_pre m hpre), ?_⟩
  refine (θ_run Cert.ReferenceIdeal.defs _ _).mono (fun _ hr c => ⟨(hr c).1.trans ?_, (hr c).2⟩)
    (Cert.ReferenceIdeal.RefValue.run m' ρ' (fun c => by rw [(hagree c).1]; exact hR c))
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
